-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x64x256 : Shape := ⟨3, ![10000, 64, 256]⟩
abbrev S10000x64x64 : Shape := ⟨3, ![10000, 64, 64]⟩
abbrev S10000x64 : Shape := ⟨2, ![10000, 64]⟩
abbrev S_ : Shape := ⟨0, ![]⟩

class Facts : Prop where
  bcast_S_S10000x64x256 : S_.BroadcastsInDim S10000x64x256 (![] : Fin 0 → Fin S10000x64x256.rank)
  reducesTo_S10000x64x256_S_d0_1_2 : S10000x64x256.ReducesTo [0, 1, 2] S_
  h_S_ : 0 < S_.numel
  bcast_S_S10000x64x64 : S_.BroadcastsInDim S10000x64x64 (![] : Fin 0 → Fin S10000x64x64.rank)
  reducesTo_S10000x64x64_S_d0_1_2 : S10000x64x64.ReducesTo [0, 1, 2] S_
  bcast_S_S10000x64 : S_.BroadcastsInDim S10000x64 (![] : Fin 0 → Fin S10000x64.rank)
  reducesTo_S10000x64_S_d0_1 : S10000x64.ReducesTo [0, 1] S_

variable [Facts]

def fn {F : FTy → Type} [FloatOps F] (main_arg0 : FVec F S10000x64x256 .f32) (main_arg1 : FVec F S10000x64x64 .f32) (main_arg2 : FVec F S10000x64 .f32) : IVec S_ 1 :=
  let main_v0 : FVec F S10000x64x256 .f32 := Host.absf main_arg0
  let main_cst : FVec F S_ .f32 := constant S_ .f32 0x7F800000#32
  let main_v1 : FVec F S10000x64x256 .f32 := broadcastInDim S10000x64x256 ![] bcast_S_S10000x64x256 main_cst
  let main_v2 : IVec S10000x64x256 1 := cmpf .olt main_v0 main_v1
  let main_c : IVec S_ 1 := constantI S_ 1 1#1
  let main_v3 : IVec S_ 1 := (fun x v => Host.reduce IntOp.andi x v reducesTo_S10000x64x256_S_d0_1_2 h_S_) main_v2 main_c
  let main_v4 : FVec F S10000x64x64 .f32 := Host.absf main_arg1
  let main_cst_0 : FVec F S_ .f32 := constant S_ .f32 0x7F800000#32
  let main_v5 : FVec F S10000x64x64 .f32 := broadcastInDim S10000x64x64 ![] bcast_S_S10000x64x64 main_cst_0
  let main_v6 : IVec S10000x64x64 1 := cmpf .olt main_v4 main_v5
  let main_c_1 : IVec S_ 1 := constantI S_ 1 1#1
  let main_v7 : IVec S_ 1 := (fun x v => Host.reduce IntOp.andi x v reducesTo_S10000x64x64_S_d0_1_2 h_S_) main_v6 main_c_1
  let main_v8 : IVec S_ 1 := andi main_v3 main_v7
  let main_v9 : FVec F S10000x64 .f32 := Host.absf main_arg2
  let main_cst_2 : FVec F S_ .f32 := constant S_ .f32 0x7F800000#32
  let main_v10 : FVec F S10000x64 .f32 := broadcastInDim S10000x64 ![] bcast_S_S10000x64 main_cst_2
  let main_v11 : IVec S10000x64 1 := cmpf .olt main_v9 main_v10
  let main_c_3 : IVec S_ 1 := constantI S_ 1 1#1
  let main_v12 : IVec S_ 1 := (fun x v => Host.reduce IntOp.andi x v reducesTo_S10000x64_S_d0_1 h_S_) main_v11 main_c_3
  let main_v13 : IVec S_ 1 := andi main_v8 main_v12
  main_v13
-- ==== Kernel.lean ====
abbrev S10000x64x256 : Shape := ⟨3, ![10000, 64, 256]⟩
abbrev S10000x64x64 : Shape := ⟨3, ![10000, 64, 64]⟩
abbrev S10000x64 : Shape := ⟨2, ![10000, 64]⟩
abbrev S80x64x256 : Shape := ⟨3, ![80, 64, 256]⟩
abbrev S80x64x64 : Shape := ⟨3, ![80, 64, 64]⟩
abbrev S10000x64x1 : Shape := ⟨3, ![10000, 64, 1]⟩

abbrev nBuf : Space → Nat
  | .hbm => 7
  | .vmem => 6
  | .smem => 0
  | _ => 0

abbrev bufTy : (tb : Table) → Fin (tcTables nBuf tb) → BufTy
  | .hbm, ⟨0, _⟩ => ⟨S10000x64x256, .f32⟩
  | .hbm, ⟨1, _⟩ => ⟨S10000x64x64, .f32⟩
  | .hbm, ⟨2, _⟩ => ⟨S10000x64, .f32⟩
  | .hbm, ⟨3, _⟩ => ⟨S10000x64x256, .f32⟩
  | .hbm, ⟨4, _⟩ => ⟨S10000x64x1, .f32⟩
  | .hbm, ⟨5, _⟩ => ⟨S10000x64x256, .f32⟩
  | .hbm, ⟨6, _⟩ => ⟨S10000x64x256, .f32⟩
  | .local _ .vmem, ⟨0, _⟩ => ⟨S80x64x256, .f32⟩
  | .local _ .vmem, ⟨1, _⟩ => ⟨S80x64x256, .f32⟩
  | .local _ .vmem, ⟨2, _⟩ => ⟨S80x64x64, .f32⟩
  | .local _ .vmem, ⟨3, _⟩ => ⟨S80x64x64, .f32⟩
  | .local _ .vmem, ⟨4, _⟩ => ⟨S80x64x256, .f32⟩
  | .local _ .vmem, ⟨5, _⟩ => ⟨S80x64x256, .f32⟩
  | _, _ => ⟨S10000x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S80x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S80x64x256_S80x64x256_0_0_0 : ∀ a, (![0, 0, 0] : Fin 3 → Nat) a + S80x64x256.size a ≤ S80x64x256.size a
  h_S80x64x256 : 0 < S80x64x256.numel
  bitsLt_bf16_f32 : FTy.bits .bf16 < FTy.bits .f32
  inb_S80x64x64_S80x64x64_0_0_0 : ∀ a, (![0, 0, 0] : Fin 3 → Nat) a + S80x64x64.size a ≤ S80x64x64.size a
  h_S80x64x64 : 0 < S80x64x64.numel
  bcast_S10000x64_S10000x64x1_0_1 : S10000x64.BroadcastsInDim S10000x64x1 (![0, 1] : Fin 2 → Fin S10000x64x1.rank)
  bcast_S10000x64x1_S10000x64x256_0_1_2 : S10000x64x1.BroadcastsInDim S10000x64x256 (![0, 1, 2] : Fin 3 → Fin S10000x64x256.rank)
  dot_S80x64x64_S80x64x256_S80x64x256_2_1_1_2_0_0_wf : DotDims.WF S80x64x64 S80x64x256 S80x64x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x64x256.size a ≤ S10000x64x256.size a
  hwx0_0 : ∀ i : grid0.Coords, EltTy.bits .f32 = 32 ∨ (Rect.block (s := S10000x64x256) S80x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x64x64.size a ≤ S10000x64x64.size a
  hwx0_1 : ∀ i : grid0.Coords, EltTy.bits .f32 = 32 ∨ (Rect.block (s := S10000x64x64) S80x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x64x256.size a ≤ S10000x64x256.size a
  hwx0_2 : ∀ i : grid0.Coords, EltTy.bits .f32 = 32 ∨ (Rect.block (s := S10000x64x256) S80x64x256.size (cc0_transform_2 i) (hinb0_2 i)).WholeWords (EltTy.packing .f32)

variable [Facts₀]

def dot_S80x64x64_S80x64x256_S80x64x256_2_1_1_2_0_0 : DotDims S80x64x64 S80x64x256 S80x64x256 where
  lhsContracting := [2]
  rhsContracting := [1]
  lhsNonContracting := [1]
  rhsNonContracting := [2]
  lhsBatch := [0]
  rhsBatch := [0]
  wf := dot_S80x64x64_S80x64x256_S80x64x256_2_1_1_2_0_0_wf

abbrev win0_0 : Pipeline.Window sig grid0 :=
  Pipeline.Window.ofSpec (Memref.whole main_arg0) S80x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S80x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S80x64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x64x256 : Shape := ⟨3, ![10000, 64, 256]⟩
abbrev S10000x64x64 : Shape := ⟨3, ![10000, 64, 64]⟩
abbrev S10000x64 : Shape := ⟨2, ![10000, 64]⟩
abbrev S10000x256x64 : Shape := ⟨3, ![10000, 256, 64]⟩
abbrev S10000x1x64 : Shape := ⟨3, ![10000, 1, 64]⟩

abbrev nBuf : Space → Nat
  | .hbm => 9
  | .vmem => 0
  | .smem => 0
  | _ => 0

abbrev bufTy : (tb : Table) → Fin (tcTables nBuf tb) → BufTy
  | .hbm, ⟨0, _⟩ => ⟨S10000x64x256, .f32⟩
  | .hbm, ⟨1, _⟩ => ⟨S10000x64x64, .f32⟩
  | .hbm, ⟨2, _⟩ => ⟨S10000x64, .f32⟩
  | .hbm, ⟨3, _⟩ => ⟨S10000x256x64, .f32⟩
  | .hbm, ⟨4, _⟩ => ⟨S10000x256x64, .f32⟩
  | .hbm, ⟨5, _⟩ => ⟨S10000x1x64, .f32⟩
  | .hbm, ⟨6, _⟩ => ⟨S10000x256x64, .f32⟩
  | .hbm, ⟨7, _⟩ => ⟨S10000x256x64, .f32⟩
  | .hbm, ⟨8, _⟩ => ⟨S10000x64x256, .f32⟩
  | _, _ => ⟨S10000x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  transposes_S10000x64x256_S10000x256x64_0_2_1 : S10000x64x256.Transposes [0, 2, 1] S10000x256x64
  bcast_S10000x64_S10000x1x64_0_2 : S10000x64.BroadcastsInDim S10000x1x64 (![0, 2] : Fin 2 → Fin S10000x1x64.rank)
  bcast_S10000x1x64_S10000x256x64_0_1_2 : S10000x1x64.BroadcastsInDim S10000x256x64 (![0, 1, 2] : Fin 3 → Fin S10000x256x64.rank)
  transposes_S10000x256x64_S10000x64x256_0_2_1 : S10000x256x64.Transposes [0, 2, 1] S10000x64x256
  dot_S10000x256x64_S10000x64x64_S10000x256x64_2_2_1_1_0_0_wf : DotDims.WF S10000x256x64 S10000x64x64 S10000x256x64 [2] [2] [1] [1] [0] [0]

variable [Facts₀]

def dot_S10000x256x64_S10000x64x64_S10000x256x64_2_2_1_1_0_0 : DotDims S10000x256x64 S10000x64x64 S10000x256x64 where
  lhsContracting := [2]
  rhsContracting := [2]
  lhsNonContracting := [1]
  rhsNonContracting := [1]
  lhsBatch := [0]
  rhsBatch := [0]
  wf := dot_S10000x256x64_S10000x64x64_S10000x256x64_2_2_1_1_0_0_wf

class Facts : Prop extends Facts₀ where

variable [Facts]
-- ==== Proof.EdgeLinearSpec.lean ====
/-
  The mathematics both programs compute: a linear layer applied independently to each of 10000 "edges".
  Edge `e` carries a weight matrix `W[e]` (64 x 64), a bias vector `b[e]` (64) and a data matrix `x[e]`
  (64 x 256: 64 input units by 256 time steps). The result at edge `e`, output unit `o`, time step `t` is

      out[e, o, t] = (sum over n of W[e, o, n] * x[e, n, t]) + b[e, o]

  that is `out[e] = W[e] * x[e]` with `b[e]` added to every column. Entries are extended reals. The only law of
  the extended reals the two programs' agreement needs is that multiplication commutes (one side forms
  `W * x`, the other `x * W`, summed over the same `n`); no cancellation or distributivity, so the
  arguments need not be finite.
-/
import Idealize.ShloMosaic.PureOps.Ideal
import Idealize.ShloMosaic.Lib.ValueIdx

noncomputable section

namespace Cert.EdgeLinear

open Idealize.ShloMosaic Idealize.ShloMosaic.ValueIdx

/-- The data array `x`: edges x input units x time steps. -/
abbrev SX : Shape := ⟨3, ![10000, 64, 256]⟩
/-- The weight array `W`: edges x output units x input units. -/
abbrev SW : Shape := ⟨3, ![10000, 64, 64]⟩
/-- The bias array `b`: edges x output units. -/
abbrev SB : Shape := ⟨2, ![10000, 64]⟩

/-- Row `o` of `W[e]` against column `t` of `x[e]`: one entry of the per-edge matrix product. -/
def edgeDot (x : SX.Idx → EReal) (W : SW.Idx → EReal) (e : Fin 10000) (o : Fin 64) (t : Fin 256) : EReal :=
  ∑ n : Fin 64, W (ix3 e o n) * x (ix3 e n t)

/-- The per-edge matrix products `W[e] * x[e]`, as one array. -/
def edgeProduct (x : SX.Idx → EReal) (W : SW.Idx → EReal) : SX.Idx → EReal :=
  fun i => edgeDot x W (i 0) (i 1) (i 2)

/-- The per-edge linear layer: the matrix product with the edge's bias added along the time axis. -/
def edgeLinear (x : SX.Idx → EReal) (W : SW.Idx → EReal) (b : SB.Idx → EReal) : SX.Idx → EReal :=
  fun i => edgeDot x W (i 0) (i 1) (i 2) + b (ix2 (i 0) (i 1))

theorem edgeProduct_apply (x : SX.Idx → EReal) (W : SW.Idx → EReal) (i : SX.Idx) :
    edgeProduct x W i = edgeDot x W (i 0) (i 1) (i 2) := rfl

theorem edgeLinear_apply (x : SX.Idx → EReal) (W : SW.Idx → EReal) (b : SB.Idx → EReal) (i : SX.Idx) :
    edgeLinear x W b i = edgeProduct x W i + b (ix2 (i 0) (i 1)) := rfl

end Cert.EdgeLinear

end
-- ==== Proof.ReferenceValue.lean ====
/-
  The reference program read index by index. It transposes `x` to [edge, time, unit], contracts the unit axis
  against `W`'s input-unit axis (giving [edge, time, output]), adds the bias broadcast along the time axis, and
  transposes back to [edge, output, time]. Read at the index (e, o, t) the two transposes cancel: the entry is
  the sum over n of x[e, n, t] * W[e, o, n], plus b[e, o] -- the per-edge linear layer, with the factors of each
  product in the other order, which on the extended reals is the same product.
-/
import proofs.«428710_j77627238908437_3_alg».proof.Proof.Gen.ReferenceIdeal.Read
import proofs.«428710_j77627238908437_3_alg».proof.Proof.EdgeLinearSpec

noncomputable section

namespace Cert.EdgeLinear.Reference

open Idealize.ShloMosaic Idealize.ShloMosaic.ValueIdx
open Cert.ReferenceIdeal Cert.ReferenceIdeal.Read Cert.EdgeLinear

/-- Through both transposes and the contraction's left index, the entry of `x` that output index (e, o, t) and
    contraction index n read is x[e, n, t]. -/
theorem idx_x (i : S10000x64x256.Idx) (n : Fin 64) :
    idx_main_v0 (lidx_main_v1 (idx_main_v5 i) n) = ix3 (i 0) n (i 2) :=
  funext fun a => Fin.ext (by match a with | ⟨0, _⟩ => rfl | ⟨1, _⟩ => rfl | ⟨2, _⟩ => rfl)

/-- The entry of `W` they read is W[e, o, n]. -/
theorem idx_W (i : S10000x64x256.Idx) (n : Fin 64) :
    ridx_main_v1 (idx_main_v5 i) n = ix3 (i 0) (i 1) n :=
  funext fun a => Fin.ext (by match a with | ⟨0, _⟩ => rfl | ⟨1, _⟩ => rfl | ⟨2, _⟩ => rfl)

/-- Through both broadcasts, the entry of `b` that output index (e, o, t) reads is b[e, o]. -/
theorem idx_b (i : S10000x64x256.Idx) :
    idx_main_v2 (idx_main_v3 (idx_main_v5 i)) = ix2 (i 0) (i 1) :=
  funext fun a => Fin.ext (by match a with | ⟨0, _⟩ => rfl | ⟨1, _⟩ => rfl)

/-- The reference's result, as a function of its three arguments, is the per-edge linear layer. -/
theorem value_eq (x : (⟨S10000x64x256, .f32⟩ : BufTy).Contents (Elt Ideal))
    (W : (⟨S10000x64x64, .f32⟩ : BufTy).Contents (Elt Ideal))
    (b : (⟨S10000x64, .f32⟩ : BufTy).Contents (Elt Ideal)) :
    val_main_v5 (F := Ideal) x W b = edgeLinear x W b := by
  funext i
  rw [val_main_v5_apply, val_main_v4_apply, val_main_v1_apply, val_main_v3_apply, val_main_v2_apply]
  simp only [val_main_v0_apply, idx_x, idx_W, idx_b]
  rw [edgeLinear_apply, edgeProduct_apply]
  unfold edgeDot
  exact congrArg (· + b (ix2 (i 0) (i 1))) (Finset.sum_congr rfl fun n _ => mul_comm _ _)

end Cert.EdgeLinear.Reference

end
-- ==== Proof.KernelPayload.lean ====
/-
  What the kernel body stores, read at an index. The body loads a block of 80 edges of `x` (80 x 64 x 256) and
  the same 80 edges of `W` (80 x 64 x 64), narrows both to bf16 (no change of value on the extended reals), and
  forms one batched matrix product into a zero accumulator: batch axis the edge, `W`'s last axis contracted
  against `x`'s middle axis. At the block index (p, o, t) the stored value is therefore the sum over n of
  Wblock[p, o, n] * xblock[p, n, t].
-/
import proofs.«428710_j77627238908437_3_alg».proof.Proof.Gen.KernelIdeal.Skeleton
import Idealize.ShloMosaic.Lib.ValueIdx
import Idealize.ShloMosaic.PureOps.Ideal.Laws

noncomputable section

namespace Cert.EdgeLinear.Kernel

open Idealize.ShloMosaic Idealize.ShloMosaic.ValueIdx
open Cert.KernelIdeal Cert.KernelIdeal.Gen

/-! ## The operand indices of the batched product, axis by axis -/

/-- The left operand (the weights) is read at the output's edge, -/
theorem lhs_0 (i : S80x64x256.Idx) (q : dot_S80x64x64_S80x64x256_S80x64x256_2_1_1_2_0_0.contr.Idx) :
    (dot_S80x64x64_S80x64x256_S80x64x256_2_1_1_2_0_0.lhsIdx i q 0).val = (i 0).val := by
  unfold DotDims.lhsIdx
  rw [dif_pos (show (0 : Fin S80x64x64.rank) ∈ dot_S80x64x64_S80x64x256_S80x64x256_2_1_1_2_0_0.lhsBatch by decide)]
  rfl
/-- at the output's output unit, -/
theorem lhs_1 (i : S80x64x256.Idx) (q : dot_S80x64x64_S80x64x256_S80x64x256_2_1_1_2_0_0.contr.Idx) :
    (dot_S80x64x64_S80x64x256_S80x64x256_2_1_1_2_0_0.lhsIdx i q 1).val = (i 1).val := by
  unfold DotDims.lhsIdx
  rw [dif_neg (show ¬(1 : Fin S80x64x64.rank) ∈ dot_S80x64x64_S80x64x256_S80x64x256_2_1_1_2_0_0.lhsBatch by decide), dif_pos (show (1 : Fin S80x64x64.rank) ∈ dot_S80x64x64_S80x64x256_S80x64x256_2_1_1_2_0_0.lhsNonContracting by decide)]
  rfl
/-- and at the contracted input unit. -/
theorem lhs_2 (i : S80x64x256.Idx) (q : dot_S80x64x64_S80x64x256_S80x64x256_2_1_1_2_0_0.contr.Idx) :
    (dot_S80x64x64_S80x64x256_S80x64x256_2_1_1_2_0_0.lhsIdx i q 2).val = (q ⟨0, by decide⟩).val :=
  dot_S80x64x64_S80x64x256_S80x64x256_2_1_1_2_0_0.lhsIdx_val_of_single rfl i q
/-- The right operand (the data) is read at the output's edge, -/
theorem rhs_0 (i : S80x64x256.Idx) (q : dot_S80x64x64_S80x64x256_S80x64x256_2_1_1_2_0_0.contr.Idx) :
    (dot_S80x64x64_S80x64x256_S80x64x256_2_1_1_2_0_0.rhsIdx i q 0).val = (i 0).val := by
  unfold DotDims.rhsIdx
  rw [dif_pos (show (0 : Fin S80x64x256.rank) ∈ dot_S80x64x64_S80x64x256_S80x64x256_2_1_1_2_0_0.rhsBatch by decide)]
  rfl
/-- at the contracted input unit, -/
theorem rhs_1 (i : S80x64x256.Idx) (q : dot_S80x64x64_S80x64x256_S80x64x256_2_1_1_2_0_0.contr.Idx) :
    (dot_S80x64x64_S80x64x256_S80x64x256_2_1_1_2_0_0.rhsIdx i q 1).val = (q ⟨0, by decide⟩).val :=
  dot_S80x64x64_S80x64x256_S80x64x256_2_1_1_2_0_0.rhsIdx_val_of_single rfl i q
/-- and at the output's time step. -/
theorem rhs_2 (i : S80x64x256.Idx) (q : dot_S80x64x64_S80x64x256_S80x64x256_2_1_1_2_0_0.contr.Idx) :
    (dot_S80x64x64_S80x64x256_S80x64x256_2_1_1_2_0_0.rhsIdx i q 2).val = (i 2).val := by
  unfold DotDims.rhsIdx
  rw [dif_neg (show ¬(2 : Fin S80x64x256.rank) ∈ dot_S80x64x64_S80x64x256_S80x64x256_2_1_1_2_0_0.rhsBatch by decide), dif_pos (show (2 : Fin S80x64x256.rank) ∈ dot_S80x64x64_S80x64x256_S80x64x256_2_1_1_2_0_0.rhsNonContracting by decide)]
  rfl

/-! ## The stored value at an index -/

/-- The body's one stored value at block index `j` = (p, o, t): the weights' row (p, o) against the data's
    column (p, t), summed over the 64 input units. -/
theorem payload_apply (x0 : Vec Ideal S80x64x256 .f32) (x1 : Vec Ideal S80x64x64 .f32) (j : S80x64x256.Idx) :
    k0_pay1 (F := Ideal) x0 x1 j = ∑ n : Fin 64, x1 (ix3 (j 0) (j 1) n) * x0 (ix3 (j 0) n (j 2)) := by
  unfold k0_pay1
  refine (Ideal.matmul_constant_zero_apply dot_S80x64x64_S80x64x256_S80x64x256_2_1_1_2_0_0 none _ _ j).trans ?_
  rw [← Equiv.sum_comp (contrEquiv1 dot_S80x64x64_S80x64x256_S80x64x256_2_1_1_2_0_0 64 rfl rfl).symm]
  refine Finset.sum_congr rfl fun n _ => ?_
  have hn := contrEquiv1_symm_val dot_S80x64x64_S80x64x256_S80x64x256_2_1_1_2_0_0 64 rfl rfl n
  have el : dot_S80x64x64_S80x64x256_S80x64x256_2_1_1_2_0_0.lhsIdx j ((contrEquiv1 dot_S80x64x64_S80x64x256_S80x64x256_2_1_1_2_0_0 64 rfl rfl).symm n) = ix3 (j 0) (j 1) n := funext fun a => Fin.ext (by
    match a with
    | ⟨0, _⟩ => exact lhs_0 _ _
    | ⟨1, _⟩ => exact lhs_1 _ _
    | ⟨2, _⟩ => exact (lhs_2 _ _).trans hn)
  have er : dot_S80x64x64_S80x64x256_S80x64x256_2_1_1_2_0_0.rhsIdx j ((contrEquiv1 dot_S80x64x64_S80x64x256_S80x64x256_2_1_1_2_0_0 64 rfl rfl).symm n) = ix3 (j 0) n (j 2) := funext fun a => Fin.ext (by
    match a with
    | ⟨0, _⟩ => exact rhs_0 _ _
    | ⟨1, _⟩ => exact (rhs_1 _ _).trans hn
    | ⟨2, _⟩ => exact rhs_2 _ _)
  rw [el, er]
  rfl

end Cert.EdgeLinear.Kernel

end
-- ==== Proof.KernelBlocks.lean ====
/-
  From blocks to the array. The grid has 125 points; at point `s` every window sits at block (s, 0, 0): the
  data window holds edges 80s .. 80s+79 of `x`, the weight window the same edges of `W`, and the output window
  is written back to the same edges of the product array. So what point `s` writes back is the block of
  `edgeProduct x W` at those edges, every index (e, o, t) lies in the block of the point `e / 80`, and the
  product array after the region is `edgeProduct x W`.
-/
import proofs.«428710_j77627238908437_3_alg».proof.Proof.Gen.KernelIdeal.Frame
import proofs.«428710_j77627238908437_3_alg».proof.Proof.EdgeLinearSpec
import proofs.«428710_j77627238908437_3_alg».proof.Proof.KernelPayload
import Idealize.ShloMosaic.Lib.Pipeline.Value

set_option maxRecDepth 16384

noncomputable section

namespace Cert.EdgeLinear.Kernel

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.EdgeLinear

variable (m : (ℓ : Loc nD τ sig) → Buf (Elt Ideal) ℓ)

/-- The body's loads and its store are at offset zero on every axis. -/
theorem zero_offsets : (![0, 0, 0] : Fin 3 → Nat) = fun _ => 0 := funext fun a => by fin_cases a <;> rfl

/-- The three index maps, decided over the grid: at point `s` each window is at block (s, 0, 0). -/
theorem block_index : ∀ s : Fin cfg0.N,
    win0_0.index s (0 : Fin 3) = s.val ∧ win0_0.index s (1 : Fin 3) = 0 ∧ win0_0.index s (2 : Fin 3) = 0
    ∧ win0_1.index s (0 : Fin 3) = s.val ∧ win0_1.index s (1 : Fin 3) = 0 ∧ win0_1.index s (2 : Fin 3) = 0
    ∧ win0_2.index s (0 : Fin 3) = s.val ∧ win0_2.index s (1 : Fin 3) = 0 ∧ win0_2.index s (2 : Fin 3) = 0 :=
  (by decide +kernel : ∀ s : Fin grid0.N, _)

/-- The stored value against the whole arrays: if the loaded data block and weight block are the arrays `x`, `W`
    read at the rows that array index `i` names, the value stored at block index `j` is the product array's entry
    at `i`. -/
theorem payload_eq_edgeProduct (x : SX.Idx → EReal) (W : SW.Idx → EReal)
    (x0 : Vec Ideal S80x64x256 .f32) (x1 : Vec Ideal S80x64x64 .f32) (j : S80x64x256.Idx) (i : SX.Idx)
    (hx : ∀ n : Fin 64, x0 (ix3 (j 0) n (j 2)) = x (ix3 (i 0) n (i 2)))
    (hW : ∀ n : Fin 64, x1 (ix3 (j 0) (j 1) n) = W (ix3 (i 0) (i 1) n)) :
    k0_pay1 (F := Ideal) x0 x1 j = edgeProduct x W i := by
  rw [payload_apply, edgeProduct_apply]
  unfold edgeDot
  exact Finset.sum_congr rfl fun n _ => by rw [hx n, hW n]

/-- WHAT POINT `s` WRITES BACK is block `s` of the product array of the inputs as the region finds them. -/
theorem flushed_eq (c : Dev nD) (s : Fin cfg0.N) :
    (dats m 0 c).flushed 2 s
      = ((cfg0.win 2).blk s).view.read (Elt Ideal) (edgeProduct (V m c main_arg0) (V m c main_arg1)) := by
  show (cfg0.win 2).cut (grid0.coords s) ((dats m 0 c).after 2 s) = _
  rw [after0_2]
  unfold out0_2
  rw [View.canon_unit_zero zero_offsets]
  simp only [View.ld_unit_zero (S := S80x64x256) zero_offsets, View.ld_unit_zero (S := S80x64x64) zero_offsets]
  obtain ⟨a0, a1, a2, w0, w1, w2, o0, o1, o2⟩ := block_index s
  funext j
  show k0_pay1 (iblk m c 0 s) (iblk m c 1 s) j
    = edgeProduct (V m c main_arg0) (V m c main_arg1) (((cfg0.win 2).blk s).view.emb j)
  refine payload_eq_edgeProduct (V m c main_arg0) (V m c main_arg1) (iblk m c 0 s) (iblk m c 1 s) j
    (((cfg0.win 2).blk s).view.emb j) (fun n => ?_) (fun n => ?_)
  · show V m c main_arg0 (((cfg0.win 0).blk s).view.emb (ix3 (j 0) n (j 2))) = _
    refine congrArg (V m c main_arg0) (funext fun a => Fin.ext ?_)
    match a with
    | ⟨0, _⟩ => show win0_0.index s (0 : Fin 3) * 80 + 1 * (j 0).val = win0_2.index s (0 : Fin 3) * 80 + 1 * (j 0).val; omega
    | ⟨1, _⟩ => show win0_0.index s (1 : Fin 3) * 64 + 1 * n.val = n.val; omega
    | ⟨2, _⟩ => show win0_0.index s (2 : Fin 3) * 256 + 1 * (j 2).val = win0_2.index s (2 : Fin 3) * 256 + 1 * (j 2).val; omega
  · show V m c main_arg1 (((cfg0.win 1).blk s).view.emb (ix3 (j 0) (j 1) n)) = _
    refine congrArg (V m c main_arg1) (funext fun a => Fin.ext ?_)
    match a with
    | ⟨0, _⟩ => show win0_1.index s (0 : Fin 3) * 80 + 1 * (j 0).val = win0_2.index s (0 : Fin 3) * 80 + 1 * (j 0).val; omega
    | ⟨1, _⟩ => show win0_1.index s (1 : Fin 3) * 64 + 1 * (j 1).val = win0_2.index s (1 : Fin 3) * 64 + 1 * (j 1).val; omega
    | ⟨2, _⟩ => show win0_1.index s (2 : Fin 3) * 64 + 1 * n.val = n.val; omega

/-- An index of the product array is in point `s`'s block iff each coordinate is in the block's range. -/
theorem mem_blk (s : Fin cfg0.N) (i : S10000x64x256.Idx) :
    i ∈ ((cfg0.win 2).blk s).view.set ↔ ∀ a : Fin 3, win0_2.index s a * S80x64x256.size a ≤ (i a).val
      ∧ (i a).val < win0_2.index s a * S80x64x256.size a + S80x64x256.size a := by
  show i ∈ ((View.whole main_v0).slice (win0_2.rect s)).set ↔ _
  rw [View.set_slice_whole, Rect.mem_set_unit]
  exact Iff.rfl

/-- Every index (e, o, t) of the product array is in the block of the point `e / 80`, which is written back. -/
theorem cover (i : S10000x64x256.Idx) :
    ∃ s : Fin cfg0.N, (cfg0.win 2).flush s = true ∧ i ∈ ((cfg0.win 2).blk s).view.set := by
  have hi0 : (i 0).val < 10000 := (i 0).isLt
  have hi1 : (i 1).val < 64 := (i 1).isLt
  have hi2 : (i 2).val < 256 := (i 2).isLt
  obtain ⟨s, hs⟩ : ∃ s : Fin cfg0.N, s.val = (i 0).val / 80 :=
    ⟨⟨(i 0).val / 80, by have hN := N_0; show (i 0).val / 80 < grid0.N; omega⟩, rfl⟩
  obtain ⟨-, -, -, -, -, -, o0, o1, o2⟩ := block_index s
  refine ⟨s, flush0_2 s, ?_⟩
  rw [mem_blk]
  intro a
  match a with
  | ⟨0, _⟩ => show win0_2.index s (0 : Fin 3) * 80 ≤ (i 0).val ∧ (i 0).val < win0_2.index s (0 : Fin 3) * 80 + 80; omega
  | ⟨1, _⟩ => show win0_2.index s (1 : Fin 3) * 64 ≤ (i 1).val ∧ (i 1).val < win0_2.index s (1 : Fin 3) * 64 + 64; omega
  | ⟨2, _⟩ => show win0_2.index s (2 : Fin 3) * 256 ≤ (i 2).val ∧ (i 2).val < win0_2.index s (2 : Fin 3) * 256 + 256; omega

/-- THE PRODUCT ARRAY after the region: the per-edge products of the data and the weights. -/
theorem product_array (c : Dev nD) :
    (dats m 0 c).arrAt 2 cfg0.N = edgeProduct (V m c main_arg0) (V m c main_arg1) :=
  (dats m 0 c).arrAt_eq_of_cover 2 (edgeProduct (V m c main_arg0) (V m c main_arg1))
    (fun s _ => flushed_eq m c s) cover

end Cert.EdgeLinear.Kernel

end
-- ==== Proof.KernelValue.lean ====
/-
  The kernel program's result. After the region has left the per-edge products `W[e] * x[e]` in the product
  array, the program broadcasts the bias [edge, output] to [edge, output, 1] and then along the 256 time steps,
  and adds it to the product array. Read at (e, o, t) the two broadcasts give b[e, o], so the result array is
  the per-edge linear layer of the three arguments, and the arguments themselves are left as they were.
-/
import proofs.«428710_j77627238908437_3_alg».proof.Proof.Gen.KernelIdeal.Frame
import proofs.«428710_j77627238908437_3_alg».proof.Proof.KernelBlocks
import Idealize.ShloMosaic.Lib.Pipeline.Value
import Idealize.ShloMosaic.Lib.StableHlo.Run

set_option maxRecDepth 16384

noncomputable section

namespace Cert.EdgeLinear.Kernel

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.EdgeLinear

variable (m : (ℓ : Loc nD τ sig) → Buf (Elt Ideal) ℓ) (ρ : Dev nD → PrngReg)

/-- The bias after its two broadcasts, read at (e, o, t), is b[e, o]: the first broadcast adds a time axis of
    extent one, the second stretches it over the 256 time steps. -/
theorem bias_apply (b : (⟨S10000x64, .f32⟩ : BufTy).Contents (Elt Ideal)) (i : S10000x64x256.Idx) :
    broadcastInDim S10000x64x256 ![0, 1, 2] bcast_S10000x64x1_S10000x64x256_0_1_2
      (broadcastInDim S10000x64x1 ![0, 1] bcast_S10000x64_S10000x64x1_0_1 b) i = b (ix2 (i 0) (i 1)) := by
  refine (broadcastInDim_apply _ bcast_S10000x64x1_S10000x64x256_0_1_2 _ i (ix3 (i 0) (i 1) (0 : Fin 1)) (fun a => ?_)).trans ?_
  · match a with
    | ⟨0, _⟩ => show (i 0).val = if (10000 : Nat) = 1 then 0 else (i 0).val; rw [if_neg (by decide)]
    | ⟨1, _⟩ => show (i 1).val = if (64 : Nat) = 1 then 0 else (i 1).val; rw [if_neg (by decide)]
    | ⟨2, _⟩ => show 0 = if (1 : Nat) = 1 then 0 else (i 2).val; rw [if_pos rfl]
  · exact broadcastInDim_apply _ bcast_S10000x64_S10000x64x1_0_1 b _ (ix2 (i 0) (i 1)) (fun a => match a with
      | ⟨0, _⟩ => by show (i 0).val = if (10000 : Nat) = 1 then 0 else (i 0).val; rw [if_neg (by decide)]
      | ⟨1, _⟩ => by show (i 1).val = if (64 : Nat) = 1 then 0 else (i 1).val; rw [if_neg (by decide)])

/-- THE RESULT ARRAY after the program's last line: the per-edge linear layer of the three arguments. -/
theorem result_eq (c : Dev nD) :
    Pipeline.afterTail₀ cfgs (dats m) 0 (V0 m) [hostOps1] c main_v3
      = edgeLinear (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v3) = _
  after_results
  have hprod : Pipeline.withArrays (cfgs 0).spec c (V0 m c) (fun w => (dats m 0 c).arrAt w (cfgs 0).N) (Proc.devRef .tc main_v0)
      = edgeProduct (m ((c.tc : Thread nD τ).loc main_arg0)) (m ((c.tc : Thread nD τ).loc main_arg1)) :=
    (Pipeline.withArrays_arr spec0 launch0.win.arr_inj c _ _ 2).trans (product_array m c)
  have hbias : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans
      (V_main_arg2 m c)
  rw [hprod, hbias]
  funext i
  rw [edgeLinear_apply]
  exact congrArg (edgeProduct _ _ i + ·) (bias_apply _ i)

/-- THE KERNEL PROGRAM'S RUN, read: every weakly fair execution terminates with the result array at the per-edge
    linear layer of the arguments and the three arguments unchanged. -/
theorem run : θ_run defs (onTc (τ := τ) (main (F := Ideal))) ⟨m, fun _ => 0, ρ⟩ (fun r => ∀ c : Dev nD,
      r.2.mem ((c.tc : Thread nD τ).loc main_v3)
        = edgeLinear (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h c).2 main_v3 (Pipeline.mem_restRefs_of main_v3 (by decide) (by decide))).trans (result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.EdgeLinear.Kernel

end
-- ==== Proof.lean ====
/-
  The certificate of a per-edge linear layer: for each of 10000 edges, out[e] = W[e] * x[e] with the bias b[e]
  added to every column (x[e] is 64 x 256, W[e] is 64 x 64, b[e] has 64 entries).

  The kernel program computes the matrix products in a grid of 125 steps, 80 edges at a time, and adds the
  broadcast bias afterwards on the whole array. The reference transposes x, contracts it against W with the
  factors in the other order, adds the bias broadcast along the time axis, and transposes back. On the
  extended reals both results are, at every index (e, o, t),

      (sum over n of W[e, o, n] * x[e, n, t]) + b[e, o]

  (`Cert.EdgeLinear.edgeLinear`): the kernel's side is `Cert.EdgeLinear.Kernel.run`, the reference's side
  `Cert.EdgeLinear.Reference.value_eq`; they differ only by the order of the two factors of each product, and
  multiplication of extended reals commutes. Nothing here uses that the inputs are finite.

  The three frame claims are the programs' runs with the result forgotten; the idealization rewrote nothing, so
  its claim is trivial.
-/
import proofs.«428710_j77627238908437_3_alg».proof.Defs
import proofs.«428710_j77627238908437_3_alg».proof.Proof.Gen.Kernel
import proofs.«428710_j77627238908437_3_alg».proof.Proof.Gen.Kernel.Skeleton
import proofs.«428710_j77627238908437_3_alg».proof.Proof.Gen.Kernel.Launch
import proofs.«428710_j77627238908437_3_alg».proof.Proof.Gen.Kernel.Points
import proofs.«428710_j77627238908437_3_alg».proof.Proof.Gen.Kernel.Frame
import proofs.«428710_j77627238908437_3_alg».proof.Proof.Gen.KernelIdeal
import proofs.«428710_j77627238908437_3_alg».proof.Proof.Gen.KernelIdeal.Skeleton
import proofs.«428710_j77627238908437_3_alg».proof.Proof.Gen.KernelIdeal.Launch
import proofs.«428710_j77627238908437_3_alg».proof.Proof.Gen.KernelIdeal.Points
import proofs.«428710_j77627238908437_3_alg».proof.Proof.Gen.KernelIdeal.Frame
import proofs.«428710_j77627238908437_3_alg».proof.Proof.Gen.ReferenceIdeal
import proofs.«428710_j77627238908437_3_alg».proof.Proof.Gen.ReferenceIdeal.Run
import proofs.«428710_j77627238908437_3_alg».proof.Proof.Gen.ReferenceIdeal.Read
import proofs.«428710_j77627238908437_3_alg».proof.Proof.Gen.Pre_finite_inputs
import proofs.«428710_j77627238908437_3_alg».proof.Proof.ReferenceValue
import proofs.«428710_j77627238908437_3_alg».proof.Proof.KernelValue
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the per-edge linear layer of those arguments in their
    result arrays: the kernel program by its run read through the grid's blocks and the bias added after it, the
    reference by its operations read at an index, the two sums differing by the order of each product's factors. -/
theorem algebraic : Cert.algebraic_KernelIdeal_ReferenceIdeal := by
  intro m ρ m' ρ' _ hagree
  refine ⟨fun c => Cert.EdgeLinear.edgeLinear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.EdgeLinear.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.EdgeLinear.Reference.value_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
